-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S1x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg5
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S50000x64 .f32) (main_arg1 : IVec S2x800000 32) (main_arg2 : FVec F S800000 .f32) (main_arg3 : FVec F S128x128 .f32) (main_arg4 : FVec F S128 .f32) (main_arg5 : FVec F S1x128 .f32) (main_arg6 : FVec F S128 .f32) (main_arg7 : FVec F S128x128 .f32) (main_arg8 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S4000x128 : Shape := ⟨2, ![4000, 128]⟩
abbrev S4000x1 : Shape := ⟨2, ![4000, 1]⟩
abbrev S1600000x64 : Shape := ⟨2, ![1600000, 64]⟩
abbrev S1600000 : Shape := ⟨1, ![1600000]⟩
abbrev S1600000x1 : Shape := ⟨2, ![1600000, 1]⟩

abbrev nBuf : Space → Nat
  | .hbm => 45
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S800000x128, .f32⟩
  | .hbm, ⟨32, _⟩ => ⟨S800000x1, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S800000x128, .f32⟩
  | .hbm, ⟨37, _⟩ => ⟨S800000x64, .f32⟩
  | .hbm, ⟨38, _⟩ => ⟨S800000x64, .f32⟩
  | .hbm, ⟨39, _⟩ => ⟨S1600000x64, .f32⟩
  | .hbm, ⟨40, _⟩ => ⟨S1600000, .i32⟩
  | .hbm, ⟨41, _⟩ => ⟨S_, .f32⟩
  | .hbm, ⟨42, _⟩ => ⟨S50000x64, .f32⟩
  | .hbm, ⟨43, _⟩ => ⟨S1600000x1, .i32⟩
  | .hbm, ⟨44, _⟩ => ⟨S50000x64, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  broadcasts_S4000x1_S4000x128 : S4000x1.Broadcasts S4000x128
  broadcasts_S1x128_S4000x128 : S1x128.Broadcasts S4000x128
  slices_S800000x128_S800000x64_0_0 : S800000x128.Slices ![0, 0] S800000x64
  slices_S800000x128_S800000x64_0_64 : S800000x128.Slices ![0, 64] S800000x64
  concatenates_S800000x64_S800000x64_S1600000x64_d0 : Shape.Concatenates [S800000x64, S800000x64] S1600000x64 0
  concatenates_S800000_S800000_S1600000_d0 : Shape.Concatenates [S800000, S800000] S1600000 0
  bcast_S_S50000x64 : S_.BroadcastsInDim S50000x64 (![] : Fin 0 → Fin S50000x64.rank)
  bcast_S1600000_S1600000x1_0 : S1600000.BroadcastsInDim S1600000x1 (![0] : Fin 1 → Fin S1600000x1.rank)
  gather_S50000x64_S800000x1_S800000x64_1_0_n_n_0_1_164_wf : GatherDims.WF S50000x64 S800000x1 S800000x64 [1] [0] [] [0] [] 1 ![1, 64]
  dot_S4000x128_S128x128_S4000x128_1_0_0_1_n_n_wf : DotDims.WF S4000x128 S128x128 S4000x128 [1] [0] [0] [1] [] []
  scatter_S50000x64_S1600000x1_S1600000x64_1_0_0_1_wf : ScatterDims.WF S50000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S800000x1.size a
  hwx0_1 : ∀ i : grid0.Coords, EltTy.bits .f32 = 32 ∨ (Rect.block (s := S800000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S800000x128.size a
  hwx0_8 : ∀ i : grid0.Coords, EltTy.bits .f32 = 32 ∨ (Rect.block (s := S800000x128) S4000x128.size (cc0_transform_8 i) (hinb0_8 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

abbrev win0_0 : Pipeline.Window sig grid0 :=
  Pipeline.Window.ofSpec (Memref.whole main_v18) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S4000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1600000x64 : Shape := ⟨2, ![1600000, 64]⟩
abbrev S1600000 : Shape := ⟨1, ![1600000]⟩
abbrev S1600000x1 : Shape := ⟨2, ![1600000, 1]⟩

abbrev nBuf : Space → Nat
  | .hbm => 74
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S800000x128, .f32⟩
  | .hbm, ⟨32, _⟩ => ⟨S800000x1, .f32⟩
  | .hbm, ⟨33, _⟩ => ⟨S800000x128, .f32⟩
  | .hbm, ⟨34, _⟩ => ⟨S800000x128, .f32⟩
  | .hbm, ⟨35, _⟩ => ⟨S800000x128, .f32⟩
  | .hbm, ⟨36, _⟩ => ⟨S1x128, .f32⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S_, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S800000x128, .f32⟩
  | .hbm, ⟨46, _⟩ => ⟨S800000x128, .f32⟩
  | .hbm, ⟨47, _⟩ => ⟨S800000x128, .f32⟩
  | .hbm, ⟨48, _⟩ => ⟨S800000x128, .f32⟩
  | .hbm, ⟨49, _⟩ => ⟨S800000x128, .f32⟩
  | .hbm, ⟨50, _⟩ => ⟨S1x128, .f32⟩
  | .hbm, ⟨51, _⟩ => ⟨S800000x128, .f32⟩
  | .hbm, ⟨52, _⟩ => ⟨S800000x128, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S800000x128, .f32⟩
  | .hbm, ⟨57, _⟩ => ⟨S800000x128, .f32⟩
  | .hbm, ⟨58, _⟩ => ⟨S_, .f32⟩
  | .hbm, ⟨59, _⟩ => ⟨S800000x128, .f32⟩
  | .hbm, ⟨60, _⟩ => ⟨S800000x128, .f32⟩
  | .hbm, ⟨61, _⟩ => ⟨S800000x128, .f32⟩
  | .hbm, ⟨62, _⟩ => ⟨S800000x128, .f32⟩
  | .hbm, ⟨63, _⟩ => ⟨S1x128, .f32⟩
  | .hbm, ⟨64, _⟩ => ⟨S800000x128, .f32⟩
  | .hbm, ⟨65, _⟩ => ⟨S800000x128, .f32⟩
  | .hbm, ⟨66, _⟩ => ⟨S800000x64, .f32⟩
  | .hbm, ⟨67, _⟩ => ⟨S800000x64, .f32⟩
  | .hbm, ⟨68, _⟩ => ⟨S1600000x64, .f32⟩
  | .hbm, ⟨69, _⟩ => ⟨S1600000, .i32⟩
  | .hbm, ⟨70, _⟩ => ⟨S_, .f32⟩
  | .hbm, ⟨71, _⟩ => ⟨S50000x64, .f32⟩
  | .hbm, ⟨72, _⟩ => ⟨S1600000x1, .i32⟩
  | .hbm, ⟨73, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S800000x1_S800000x128_0_1 : S800000x1.BroadcastsInDim S800000x128 (![0, 1] : Fin 2 → Fin S800000x128.rank)
  bcast_S1x128_S800000x128_0_1 : S1x128.BroadcastsInDim S800000x128 (![0, 1] : Fin 2 → Fin S800000x128.rank)
  bcast_S128_S1x128_1 : S128.BroadcastsInDim S1x128 (![1] : Fin 1 → Fin S1x128.rank)
  bcast_S_S800000x128 : S_.BroadcastsInDim S800000x128 (![] : Fin 0 → Fin S800000x128.rank)
  slices_S800000x128_S800000x64_0_0 : S800000x128.Slices ![0, 0] S800000x64
  slices_S800000x128_S800000x64_0_64 : S800000x128.Slices ![0, 64] S800000x64
  concatenates_S800000x64_S800000x64_S1600000x64_d0 : Shape.Concatenates [S800000x64, S800000x64] S1600000x64 0
  concatenates_S800000_S800000_S1600000_d0 : Shape.Concatenates [S800000, S800000] S1600000 0
  bcast_S_S50000x64 : S_.BroadcastsInDim S50000x64 (![] : Fin 0 → Fin S50000x64.rank)
  bcast_S1600000_S1600000x1_0 : S1600000.BroadcastsInDim S1600000x1 (![0] : Fin 1 → Fin S1600000x1.rank)
  gather_S50000x64_S800000x1_S800000x64_1_0_n_n_0_1_164_wf : GatherDims.WF S50000x64 S800000x1 S800000x64 [1] [0] [] [0] [] 1 ![1, 64]
  dot_S800000x128_S128x128_S800000x128_1_0_0_1_n_n_wf : DotDims.WF S800000x128 S128x128 S800000x128 [1] [0] [0] [1] [] []
  scatter_S50000x64_S1600000x1_S1600000x64_1_0_0_1_wf : ScatterDims.WF S50000x64 S1600000x1 S1600000x64 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.EdgeMlp.lean ====
/-
  The edge network, one edge at a time, over the extended reals.

  An edge carries a feature row `x` (the two endpoint rows joined, 128 entries) and a time `t`.  The time is embedded as
  `silu (t · wt k + bt k)`, the hidden layer is `silu ((Σ i, x i · W1 i k) + embedding k + b1 k)` and the output is
  `(Σ k, hidden k · W2 k j) + b2 j`, with `silu a = a · logistic a` and `logistic a = 1 / (1 + e^(-a))` read on the extended
  reals.  Both programs compute this row function: one block of 4000 edges at a time on one side, all 800000 edges at once on
  the other.  The order of the two additions around the embedding is the same on both sides, so no law of addition is used.
-/
import Idealize.ShloMosaic.PureOps.Ideal
import Idealize.ShloMosaic.PureOps.Ideal.Laws
import Idealize.ShloMosaic.Lib.IdealHost
import Idealize.ShloMosaic.Lib.ValueIdx

noncomputable section

namespace Cert.EdgeMlp

open Idealize.ShloMosaic

/-- `a · logistic a` on the extended reals. -/
def silu (a : EReal) : EReal := a * Ideal.logistic a

/-- Hidden unit `k` of one edge: the feature row against column `k` of the first weight matrix, plus the embedded time,
    plus the bias, through `silu`. -/
def hidden (x : Fin 128 → EReal) (t : EReal) (W1 : Fin 128 → Fin 128 → EReal) (b1 wt bt : Fin 128 → EReal)
    (k : Fin 128) : EReal :=
  silu ((∑ i : Fin 128, x i * W1 i k) + silu (t * wt k + bt k) + b1 k)

/-- Output entry `j` of one edge: the hidden row against column `j` of the second weight matrix, plus the bias. -/
def out (x : Fin 128 → EReal) (t : EReal) (W1 : Fin 128 → Fin 128 → EReal) (b1 wt bt : Fin 128 → EReal)
    (W2 : Fin 128 → Fin 128 → EReal) (b2 : Fin 128 → EReal) (j : Fin 128) : EReal :=
  (∑ k : Fin 128, hidden x t W1 b1 wt bt k * W2 k j) + b2 j

/-- The quotient `1 / (1 + e^(-a))`, written with the pattern of the float one, is the logistic function: the way a host
    program spells it. -/
theorem div_one_add_exp_neg (a : EReal) :
    Ideal.div (Ideal.ofBits .f32 0x3F800000#32) (Ideal.ofBits .f32 0x3F800000#32 + Ideal.exp (-a)) = Ideal.logistic a := by
  rw [Ideal.ofBits_one_f32]; rfl

/-- The output entry depends on its arguments only through their values. -/
theorem out_congr {x x' : Fin 128 → EReal} {t t' : EReal} {W1 W1' : Fin 128 → Fin 128 → EReal} {b1 b1' wt wt' bt bt' : Fin 128 → EReal}
    {W2 W2' : Fin 128 → Fin 128 → EReal} {b2 b2' : Fin 128 → EReal} (j : Fin 128)
    (hx : ∀ i, x i = x' i) (ht : t = t') (hW1 : ∀ i k, W1 i k = W1' i k) (hb1 : ∀ k, b1 k = b1' k) (hwt : ∀ k, wt k = wt' k)
    (hbt : ∀ k, bt k = bt' k) (hW2 : ∀ k j, W2 k j = W2' k j) (hb2 : ∀ j, b2 j = b2' j) :
    out x t W1 b1 wt bt W2 b2 j = out x' t' W1' b1' wt' bt' W2' b2' j := by
  obtain rfl : x = x' := funext hx
  obtain rfl : W1 = W1' := funext fun i => funext (hW1 i)
  obtain rfl : b1 = b1' := funext hb1
  obtain rfl : wt = wt' := funext hwt
  obtain rfl : bt = bt' := funext hbt
  obtain rfl : W2 = W2' := funext fun k => funext (hW2 k)
  obtain rfl : b2 = b2' := funext hb2
  rw [ht]

end Cert.EdgeMlp

end
-- ==== Proof.KernelBlock.lean ====
/-
  One block of 4000 edges: what the kernel body stores, entry by entry.

  The body loads the block of edge rows, the block's column of times, the two weight matrices and the three bias rows,
  and stores one [4000, 128] value.  Read at row `p` and column `q` that value is the edge network's output entry `q`
  (`Cert.EdgeMlp.out`) of edge `p` of the block: the two matrix products into a zero accumulator are plain sums over the
  128 contracted entries, the changes of float format are the identity on the extended reals, a bias row or the time column
  broadcast over the block reads its one row or column, and every other step acts entry by entry.
-/
import proofs.«173034_j46196668236124_1_alg».proof.Proof.Gen.KernelIdeal.Skeleton
import proofs.«173034_j46196668236124_1_alg».proof.Proof.EdgeMlp
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx Cert.EdgeMlp

/-- A column broadcast across: an `[a, 1]` array broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The block's matrix product: rows of the left operand against columns of the right -/

theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_contr (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_contr (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product into a zero accumulator, at row `p` and column `q`: the sum over the 128 contracted entries of the left
    operand's row `p` times the right operand's column `q`. -/
theorem matmul_zero_apply {φ₁ φ₂ : FTy} (l : FVec Ideal S4000x128 φ₁) (r : FVec Ideal S128x128 φ₂) (p : Fin 4000) (q : Fin 128) :
    matmul dot_S4000x128_S128x128_S4000x128_1_0_0_1_n_n none l r (constant S4000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_contr _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-- The logistic operation on a vector acts entry by entry. -/
theorem logistic_apply {s : Shape} {φ : FTy} (a : FVec Ideal s φ) (i : s.Idx) : logistic a i = Ideal.logistic (a i) := rfl

/-! ## The stored value at an entry -/

/-- Entry `(p, q)` of what the body stores is output entry `q` of the edge network on row `p` of the loaded block. -/
theorem stored_apply (v0 : FVec Ideal S4000x128 .f32) (v2 : FVec Ideal S4000x1 .f32) (v4 v5 v7 v9 : FVec Ideal S1x128 .f32)
    (v11 v13 : FVec Ideal S128x128 .f32) (p : Fin 4000) (q : Fin 128) :
    k0_pay1 (F := Ideal) v0 v2 v4 v5 v7 v9 v11 v13 (ix2 p q)
      = out (fun i => v0 (ix2 p i)) (v2 (ix2 p (0 : Fin 1))) (fun i k => v11 (ix2 i k)) (fun k => v7 (ix2 (0 : Fin 1) k))
          (fun k => v4 (ix2 (0 : Fin 1) k)) (fun k => v5 (ix2 (0 : Fin 1) k)) (fun k j => v13 (ix2 k j))
          (fun j => v9 (ix2 (0 : Fin 1) j)) q := by
  unfold k0_pay1
  simp only [shapeCast_self, addf_apply, mulf_apply, truncf_apply, logistic_apply, matmul_zero_apply,
    broadcastTo_1b_ab_apply, broadcastTo_a1_ab_apply]
  rfl

end Cert.KernelIdeal.Block

end
-- ==== Proof.KernelValue.lean ====
/-
  The kernel's output array, whole.

  The grid has 200 points; point `t` works on edges `4000 t … 4000 t + 3999`: it reads that block of edge rows and of times
  and the whole of each weight matrix and bias row, and writes back block `t` of the [800000, 128] output.  So the array after
  the run is, at edge `e` and column `j`, the edge network's output entry `j` on row `e` of the arrays the region finds
  (`edgeOut`): the block that holds `e` is block `e / 4000`, and the blocks tile the array.  The lines after the region
  then slice this array in two halves, stack the halves and scatter-add the stacked rows by the stacked endpoint indices
  (`closing`).
-/
import proofs.«173034_j46196668236124_1_alg».proof.Proof.Gen.KernelIdeal.Frame
import proofs.«173034_j46196668236124_1_alg».proof.Proof.KernelBlock
import Idealize.ShloMosaic.Lib.Pipeline.Value
import Idealize.ShloMosaic.Lib.StableHlo.Run
import Idealize.ShloMosaic.Lib.Tactic

set_option maxRecDepth 16384

noncomputable section

namespace Cert.KernelIdeal.Edge

open Cert.KernelIdeal Cert.KernelIdeal.Gen Idealize.ShloMosaic Idealize.ShloMosaic.TcCoe Idealize.SL.Sem
open Idealize.ShloMosaic.ValueIdx Cert.EdgeMlp
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds, by their shapes -/

/-- The joined endpoint rows, one per edge. -/
abbrev edgeRows (c : Dev nD) : FVec Ideal S800000x128 .f32 := V m c main_v18
/-- The times, as a column. -/
abbrev times (c : Dev nD) : FVec Ideal S800000x1 .f32 := V m c main_v19
abbrev w1 (c : Dev nD) : FVec Ideal S128x128 .f32 := V m c main_arg3
abbrev b1 (c : Dev nD) : FVec Ideal S1x128 .f32 := V m c main_v20
abbrev wt (c : Dev nD) : FVec Ideal S1x128 .f32 := V m c main_arg5
abbrev bt (c : Dev nD) : FVec Ideal S1x128 .f32 := V m c main_v21
abbrev w2 (c : Dev nD) : FVec Ideal S128x128 .f32 := V m c main_arg7
abbrev b2 (c : Dev nD) : FVec Ideal S1x128 .f32 := V m c main_v22

/-- Output entry `j` of edge `e`. -/
def edgeOutAt (c : Dev nD) (e : Fin 800000) (j : Fin 128) : EReal :=
  out (fun k => edgeRows m c (ix2 e k)) (times m c (ix2 e (0 : Fin 1))) (fun a k => w1 m c (ix2 a k)) (fun k => b1 m c (ix2 (0 : Fin 1) k))
    (fun k => wt m c (ix2 (0 : Fin 1) k)) (fun k => bt m c (ix2 (0 : Fin 1) k)) (fun k j => w2 m c (ix2 k j))
    (fun j => b2 m c (ix2 (0 : Fin 1) j)) j

/-- The whole output array. -/
def edgeOut (c : Dev nD) : FVec Ideal S800000x128 .f32 := fun i => edgeOutAt m c (i 0) (i 1)

/-! ## Which block each point reads and writes -/

/-- Block indices, decided over the 200 points: the edge rows, the times and the output move with the point along the edge
    axis; every other window stays on its one block. -/
structure IdxFacts (t : Fin cfg0.N) : Prop where
  w0r : win0_0.index t (0 : Fin 2) = t.val
  w0c : win0_0.index t (1 : Fin 2) = 0
  w1r : win0_1.index t (0 : Fin 2) = t.val
  w1c : win0_1.index t (1 : Fin 2) = 0
  w2r : win0_2.index t (0 : Fin 2) = 0
  w2c : win0_2.index t (1 : Fin 2) = 0
  w3r : win0_3.index t (0 : Fin 2) = 0
  w3c : win0_3.index t (1 : Fin 2) = 0
  w4r : win0_4.index t (0 : Fin 2) = 0
  w4c : win0_4.index t (1 : Fin 2) = 0
  w5r : win0_5.index t (0 : Fin 2) = 0
  w5c : win0_5.index t (1 : Fin 2) = 0
  w6r : win0_6.index t (0 : Fin 2) = 0
  w6c : win0_6.index t (1 : Fin 2) = 0
  w7r : win0_7.index t (0 : Fin 2) = 0
  w7c : win0_7.index t (1 : Fin 2) = 0
  w8r : win0_8.index t (0 : Fin 2) = t.val
  w8c : win0_8.index t (1 : Fin 2) = 0

theorem idx_decided : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

theorem idx_facts (t : Fin cfg0.N) : IdxFacts t := by
  obtain ⟨⟨a0, a1⟩, ⟨b0, b1⟩, ⟨c0, c1⟩, ⟨d0, d1⟩, ⟨e0, e1⟩, ⟨f0, f1⟩, ⟨g0, g1⟩, ⟨h0, h1⟩, ⟨i0, i1⟩⟩ := idx_decided t
  exact ⟨a0, a1, b0, b1, c0, c1, d0, d1, e0, e1, f0, f1, g0, g1, h0, h1, i0, i1⟩

/-! ## Each window's block, read as the array -/

/-- Row `p` of the block of edge rows at point `t` is row `4000 t + p` of the array. -/
theorem rows_blk (c : Dev nD) (t : Fin cfg0.N) (p : Fin 4000) (k : Fin 128) (e : Fin 800000) (he : e.val = t.val * 4000 + p.val) :
    (iblk m c 0 t : FVec Ideal S4000x128 .f32) (ix2 p k) = edgeRows m c (ix2 e k) := by
  have h := idx_facts t
  unfold iblk
  rw [View.read_apply]
  show V m c main_v18 _ = V m c main_v18 _
  congr 1
  funext ax
  apply Fin.ext
  match ax with
  | ⟨0, _⟩ => show win0_0.index t (0 : Fin 2) * 4000 + 1 * p.val = e.val; have := h.w0r; omega
  | ⟨1, _⟩ => show win0_0.index t (1 : Fin 2) * 128 + 1 * k.val = k.val; have := h.w0c; omega

/-- Entry `p` of the block of times at point `t` is entry `4000 t + p` of the column. -/
theorem times_blk (c : Dev nD) (t : Fin cfg0.N) (p : Fin 4000) (e : Fin 800000) (he : e.val = t.val * 4000 + p.val) :
    (iblk m c 1 t : FVec Ideal S4000x1 .f32) (ix2 p (0 : Fin 1)) = times m c (ix2 e (0 : Fin 1)) := by
  have h := idx_facts t
  unfold iblk
  rw [View.read_apply]
  show V m c main_v19 _ = V m c main_v19 _
  congr 1
  funext ax
  apply Fin.ext
  match ax with
  | ⟨0, _⟩ => show win0_1.index t (0 : Fin 2) * 4000 + 1 * p.val = e.val; have := h.w1r; omega
  | ⟨1, _⟩ => show win0_1.index t (1 : Fin 2) * 1 + 1 * 0 = 0; have := h.w1c; omega

/-- The weight matrices and the bias rows are read whole at every point. -/
theorem w1_blk (c : Dev nD) (t : Fin cfg0.N) (a : Fin 128) (k : Fin 128) :
    (iblk m c 2 t : FVec Ideal S128x128 .f32) (ix2 a k) = w1 m c (ix2 a k) := by
  have h := idx_facts t
  unfold iblk
  rw [View.read_apply]
  show V m c main_arg3 _ = V m c main_arg3 _
  congr 1
  funext ax
  apply Fin.ext
  match ax with
  | ⟨0, _⟩ => show win0_2.index t (0 : Fin 2) * 128 + 1 * a.val = a.val; have := h.w2r; omega
  | ⟨1, _⟩ => show win0_2.index t (1 : Fin 2) * 128 + 1 * k.val = k.val; have := h.w2c; omega

theorem b1_blk (c : Dev nD) (t : Fin cfg0.N) (a : Fin 1) (k : Fin 128) :
    (iblk m c 3 t : FVec Ideal S1x128 .f32) (ix2 a k) = b1 m c (ix2 a k) := by
  have h := idx_facts t
  unfold iblk
  rw [View.read_apply]
  show V m c main_v20 _ = V m c main_v20 _
  congr 1
  funext ax
  apply Fin.ext
  match ax with
  | ⟨0, _⟩ => show win0_3.index t (0 : Fin 2) * 1 + 1 * a.val = a.val; have := h.w3r; omega
  | ⟨1, _⟩ => show win0_3.index t (1 : Fin 2) * 128 + 1 * k.val = k.val; have := h.w3c; omega

theorem wt_blk (c : Dev nD) (t : Fin cfg0.N) (a : Fin 1) (k : Fin 128) :
    (iblk m c 4 t : FVec Ideal S1x128 .f32) (ix2 a k) = wt m c (ix2 a k) := by
  have h := idx_facts t
  unfold iblk
  rw [View.read_apply]
  show V m c main_arg5 _ = V m c main_arg5 _
  congr 1
  funext ax
  apply Fin.ext
  match ax with
  | ⟨0, _⟩ => show win0_4.index t (0 : Fin 2) * 1 + 1 * a.val = a.val; have := h.w4r; omega
  | ⟨1, _⟩ => show win0_4.index t (1 : Fin 2) * 128 + 1 * k.val = k.val; have := h.w4c; omega

theorem bt_blk (c : Dev nD) (t : Fin cfg0.N) (a : Fin 1) (k : Fin 128) :
    (iblk m c 5 t : FVec Ideal S1x128 .f32) (ix2 a k) = bt m c (ix2 a k) := by
  have h := idx_facts t
  unfold iblk
  rw [View.read_apply]
  show V m c main_v21 _ = V m c main_v21 _
  congr 1
  funext ax
  apply Fin.ext
  match ax with
  | ⟨0, _⟩ => show win0_5.index t (0 : Fin 2) * 1 + 1 * a.val = a.val; have := h.w5r; omega
  | ⟨1, _⟩ => show win0_5.index t (1 : Fin 2) * 128 + 1 * k.val = k.val; have := h.w5c; omega

theorem w2_blk (c : Dev nD) (t : Fin cfg0.N) (a : Fin 128) (k : Fin 128) :
    (iblk m c 6 t : FVec Ideal S128x128 .f32) (ix2 a k) = w2 m c (ix2 a k) := by
  have h := idx_facts t
  unfold iblk
  rw [View.read_apply]
  show V m c main_arg7 _ = V m c main_arg7 _
  congr 1
  funext ax
  apply Fin.ext
  match ax with
  | ⟨0, _⟩ => show win0_6.index t (0 : Fin 2) * 128 + 1 * a.val = a.val; have := h.w6r; omega
  | ⟨1, _⟩ => show win0_6.index t (1 : Fin 2) * 128 + 1 * k.val = k.val; have := h.w6c; omega

theorem b2_blk (c : Dev nD) (t : Fin cfg0.N) (a : Fin 1) (k : Fin 128) :
    (iblk m c 7 t : FVec Ideal S1x128 .f32) (ix2 a k) = b2 m c (ix2 a k) := by
  have h := idx_facts t
  unfold iblk
  rw [View.read_apply]
  show V m c main_v22 _ = V m c main_v22 _
  congr 1
  funext ax
  apply Fin.ext
  match ax with
  | ⟨0, _⟩ => show win0_7.index t (0 : Fin 2) * 1 + 1 * a.val = a.val; have := h.w7r; omega
  | ⟨1, _⟩ => show win0_7.index t (1 : Fin 2) * 128 + 1 * k.val = k.val; have := h.w7c; omega

/-! ## What a point stores is its block of the whole output -/

theorem block_entry (c : Dev nD) (t : Fin cfg0.N) (p : Fin 4000) (q : Fin 128) (e : Fin 800000) (he : e.val = t.val * 4000 + p.val) :
    k0_pay1 (iblk m c 0 t) (iblk m c 1 t) (iblk m c 4 t) (iblk m c 5 t) (iblk m c 3 t) (iblk m c 7 t) (iblk m c 2 t) (iblk m c 6 t) (ix2 p q) = edgeOutAt m c e q :=
  (Block.stored_apply (iblk m c 0 t) (iblk m c 1 t) (iblk m c 4 t) (iblk m c 5 t) (iblk m c 3 t) (iblk m c 7 t) (iblk m c 2 t) (iblk m c 6 t) p q).trans
    (out_congr q (fun k => rows_blk m c t p k e he) (times_blk m c t p e he) (fun a k => w1_blk m c t a k) (fun k => b1_blk m c t 0 k)
      (fun k => wt_blk m c t 0 k) (fun k => bt_blk m c t 0 k) (fun k j => w2_blk m c t k j) (fun j => b2_blk m c t 0 j))

theorem block_entry' (c : Dev nD) (t : Fin cfg0.N) (y : S4000x128.Idx) (i : S800000x128.Idx)
    (h0 : (i 0).val = t.val * 4000 + (y 0).val) (h1 : (i 1).val = (y 1).val) :
    k0_pay1 (iblk m c 0 t) (iblk m c 1 t) (iblk m c 4 t) (iblk m c 5 t) (iblk m c 3 t) (iblk m c 7 t) (iblk m c 2 t) (iblk m c 6 t) y = edgeOut m c i := by
  obtain ⟨p, q, rfl⟩ : ∃ (p : Fin 4000) (q : Fin 128), y = ix2 p q := ⟨y 0, y 1, eq_ix2 y⟩
  obtain ⟨e, j, rfl⟩ : ∃ (e : Fin 800000) (j : Fin 128), i = ix2 e j := ⟨i 0, i 1, eq_ix2 i⟩
  obtain rfl : j = q := Fin.ext h1
  exact block_entry m c t p j e h0

/-- What point `t` writes back is block `t` of the whole output. -/
theorem flushed_eq (c : Dev nD) (t : Fin cfg0.N) :
    (dats m 0 c).flushed 8 t = ((cfg0.win 8).blk t).view.read (Elt Ideal) (edgeOut m c) := by
  show (cfg0.win 8).cut (grid0.coords t) ((dats m 0 c).after 8 t) = _
  rw [after0_8]
  unfold out0_8
  rw [View.canon_unit_zero hz]
  simp only [View.ld_unit_zero (S := S4000x128) hz, View.ld_unit_zero (S := S4000x1) hz, View.ld_unit_zero (S := S1x128) hz,
    View.ld_unit_zero (S := S128x128) hz]
  have h := idx_facts t
  funext j
  refine block_entry' m c t j (((cfg0.win 8).blk t).view.emb j) ?_ ?_
  · show win0_8.index t (0 : Fin 2) * 4000 + 1 * (j 0).val = t.val * 4000 + (j 0).val
    have := h.w8r; omega
  · show win0_8.index t (1 : Fin 2) * 128 + 1 * (j 1).val = (j 1).val
    have := h.w8c; omega

/-- An index of the output array is in point `t`'s block iff each coordinate is in the block's range. -/
theorem mem_blk (t : Fin cfg0.N) (i : S800000x128.Idx) :
    i ∈ ((cfg0.win 8).blk t).view.set ↔ ∀ a : Fin 2, win0_8.index t a * S4000x128.size a ≤ (i a).val ∧ (i a).val < win0_8.index t a * S4000x128.size a + S4000x128.size a := by
  show i ∈ ((View.whole main_v23).slice (win0_8.rect t)).set ↔ _
  rw [View.set_slice_whole, Rect.mem_set_unit]
  exact Iff.rfl

/-- Every edge is in some point's block: edge `e` in block `e / 4000`. -/
theorem covered (i : S800000x128.Idx) : ∃ t : Fin cfg0.N, (cfg0.win 8).flush t = true ∧ i ∈ ((cfg0.win 8).blk t).view.set := by
  have hi0 : (i 0).val < 800000 := (i 0).isLt
  have hi1 : (i 1).val < 128 := (i 1).isLt
  have hN : cfg0.N = 200 := N_0
  have ht : (i 0).val / 4000 < cfg0.N := by rw [hN]; omega
  refine ⟨⟨(i 0).val / 4000, ht⟩, flush0_8 _, ?_⟩
  have h := idx_facts ⟨(i 0).val / 4000, ht⟩
  rw [mem_blk]
  intro a
  match a with
  | ⟨0, _⟩ =>
    show win0_8.index ⟨(i 0).val / 4000, ht⟩ (0 : Fin 2) * 4000 ≤ (i 0).val ∧ (i 0).val < win0_8.index ⟨(i 0).val / 4000, ht⟩ (0 : Fin 2) * 4000 + 4000
    have := h.w8r
    have e : (⟨(i 0).val / 4000, ht⟩ : Fin cfg0.N).val = (i 0).val / 4000 := rfl
    omega
  | ⟨1, _⟩ =>
    show win0_8.index ⟨(i 0).val / 4000, ht⟩ (1 : Fin 2) * 128 ≤ (i 1).val ∧ (i 1).val < win0_8.index ⟨(i 0).val / 4000, ht⟩ (1 : Fin 2) * 128 + 128
    have := h.w8c
    omega

/-- The output array after the run. -/
theorem final (c : Dev nD) : (dats m 0 c).arrAt 8 cfg0.N = edgeOut m c :=
  (dats m 0 c).arrAt_eq_of_cover 8 (edgeOut m c) (fun t _ => flushed_eq m c t) covered

/-! ## The lines after the region -/

/-- The closing lines as one function of the two endpoint-index rows and the output array: the array's left and right
    halves stacked, scatter-added into zeros by the stacked indices. -/
def closing {F : FTy → Type} [FloatOps F] (rows cols : (⟨S800000, .i32⟩ : BufTy).Contents (Elt F))
    (E : (⟨S800000x128, .f32⟩ : BufTy).Contents (Elt F)) : (⟨S50000x64, .f32⟩ : BufTy).Contents (Elt F) :=
  Host.scatterAdd scatter_S50000x64_S1600000x1_S1600000x64_1_0_0_1
    (broadcastInDim S50000x64 ![] bcast_S_S50000x64 (constant (F := F) S_ .f32 0x00000000#32))
    (broadcastInDim S1600000x1 ![0] bcast_S1600000_S1600000x1_0
      (concatenate S1600000 0 [⟨S800000, rows⟩, ⟨S800000, cols⟩] concatenates_S800000_S800000_S1600000_d0))
    (concatenate S1600000x64 0
      [⟨S800000x64, extractStridedSlice S800000x64 ![0, 0] E slices_S800000x128_S800000x64_0_0⟩,
        ⟨S800000x64, extractStridedSlice S800000x64 ![0, 64] E slices_S800000x128_S800000x64_0_64⟩]
      concatenates_S800000x64_S800000x64_S1600000x64_d0)

/-- The program's result: the closing lines of the two index rows as the region found them and the whole output. -/
theorem result_eq (c : Dev nD) :
    Pipeline.afterTail₀ cfgs (dats m) 0 (V0 m) [hostOps1] c main_v30 = closing (V m c main_v1) (V m c main_v3) (edgeOut m c) := by
  unfold Pipeline.afterTail₀
  show StableHlo.after hostOps1 _ (Proc.devRef .tc main_v30) = _
  after_results
  rw [show Pipeline.withArrays (cfgs 0).spec c (V0 m c) (fun w => (dats m 0 c).arrAt w (cfgs 0).N) (Proc.tc.devRef main_v23) = edgeOut m c from
        (Pipeline.withArrays_arr spec0 launch0.win.arr_inj c _ _ 8).trans (final m c),
      Pipeline.withArrays_of_ne _ c (V0 m c) _ main_v1 (by exact (by decide : ∀ w, Pipeline.arrRef spec0 w ≠ main_v1)),
      Pipeline.withArrays_of_ne _ c (V0 m c) _ main_v3 (by exact (by decide : ∀ w, Pipeline.arrRef spec0 w ≠ main_v3))]
  rfl

/-- The run, read: the result at the closing lines of the whole output, the arguments unchanged. -/
theorem run : θ_run defs (onTc (τ := τ) (main (F := Ideal))) ⟨m, fun _ => 0, ρ⟩ fun r => ∀ c : Dev nD,
      r.2.mem ((c.tc : Thread nD τ).loc main_v30) = closing (V m c main_v1) (V m c main_v3) (edgeOut m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).2 main_v30 (Pipeline.mem_restRefs_of main_v30 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      ((h c).1 4).trans (((dats m 0 c).arrAt_in 4 rfl _).trans ((A_eq m c 4).trans (V_main_arg5 m c))),
      (((h c).2 main_arg6 (Pipeline.mem_restRefs_of main_arg6 (by decide) (by decide))).trans (W_main_arg6 m (dats m) c)),
      ((h c).1 6).trans (((dats m 0 c).arrAt_in 6 rfl _).trans ((A_eq m c 6).trans (V_main_arg7 m c))),
      (((h c).2 main_arg8 (Pipeline.mem_restRefs_of main_arg8 (by decide) (by decide))).trans (W_main_arg8 m (dats m) c))⟩)
    (run_main m ρ)

end Cert.KernelIdeal.Edge

end
-- ==== Proof.RefMlp.lean ====
/-
  The reference's edge network at an entry.

  Before its closing slices and scatter the reference holds an [800000, 128] array: the edge network applied to every edge
  row at once.  Read at edge `e` and column `j` it is output entry `j` of `Cert.EdgeMlp.out` on row `e` of the joined
  endpoint features: each `dot_general` is the sum over its 128 contracted entries, each broadcast reads its one row or
  column, and `x · (1 / (1 + e^(-x)))`, the way the host spells `silu`, is `x · logistic x`.
-/
import proofs.«173034_j46196668236124_1_alg».proof.Proof.Gen.ReferenceIdeal.Read
import proofs.«173034_j46196668236124_1_alg».proof.Proof.EdgeMlp
import Idealize.ShloMosaic.Lib.ValueIdx
import Idealize.ShloMosaic.PureOps.Ideal.Laws

noncomputable section

namespace Cert.ReferenceIdeal.Mlp

open Cert.ReferenceIdeal Cert.ReferenceIdeal.Read Idealize.ShloMosaic Idealize.ShloMosaic.ValueIdx Cert.EdgeMlp

/-! ## Where each layout step reads its operand, in coordinates -/

theorem lidx33 (e : Fin 800000) (j k : Fin 128) : lidx_main_v33 (ix2 e j) k = ix2 e k :=
  funext fun a => match a with | ⟨0, _⟩ => rfl | ⟨1, _⟩ => rfl
theorem ridx33 (e : Fin 800000) (j k : Fin 128) : ridx_main_v33 (ix2 e j) k = ix2 k j :=
  funext fun a => match a with | ⟨0, _⟩ => rfl | ⟨1, _⟩ => rfl
theorem lidx27 (e : Fin 800000) (k i : Fin 128) : lidx_main_v27 (ix2 e k) i = ix2 e i :=
  funext fun a => match a with | ⟨0, _⟩ => rfl | ⟨1, _⟩ => rfl
theorem ridx27 (e : Fin 800000) (k i : Fin 128) : ridx_main_v27 (ix2 e k) i = ix2 i k :=
  funext fun a => match a with | ⟨0, _⟩ => rfl | ⟨1, _⟩ => rfl
theorem idx35 (e : Fin 800000) (j : Fin 128) : idx_main_v35 (ix2 e j) = ix2 (0 : Fin 1) j :=
  funext fun a => match a with | ⟨0, _⟩ => rfl | ⟨1, _⟩ => rfl
theorem idx34 (j : Fin 128) : idx_main_v34 (ix2 (0 : Fin 1) j) = ix1 j :=
  funext fun a => match a with | ⟨0, _⟩ => rfl
theorem idx30 (e : Fin 800000) (j : Fin 128) : idx_main_v30 (ix2 e j) = ix2 (0 : Fin 1) j :=
  funext fun a => match a with | ⟨0, _⟩ => rfl | ⟨1, _⟩ => rfl
theorem idx29 (j : Fin 128) : idx_main_v29 (ix2 (0 : Fin 1) j) = ix1 j :=
  funext fun a => match a with | ⟨0, _⟩ => rfl
theorem idx24 (e : Fin 800000) (j : Fin 128) : idx_main_v24 (ix2 e j) = ix2 (0 : Fin 1) j :=
  funext fun a => match a with | ⟨0, _⟩ => rfl | ⟨1, _⟩ => rfl
theorem idx23 (j : Fin 128) : idx_main_v23 (ix2 (0 : Fin 1) j) = ix1 j :=
  funext fun a => match a with | ⟨0, _⟩ => rfl
theorem idx21 (e : Fin 800000) (j : Fin 128) : idx_main_v21 (ix2 e j) = ix2 (0 : Fin 1) j :=
  funext fun a => match a with | ⟨0, _⟩ => rfl | ⟨1, _⟩ => rfl
theorem idx20 (e : Fin 800000) (j : Fin 128) : idx_main_v20 (ix2 e j) = ix2 e (0 : Fin 1) :=
  funext fun a => match a with | ⟨0, _⟩ => rfl | ⟨1, _⟩ => rfl
theorem idx19 (e : Fin 800000) : idx_main_v19 (ix2 e (0 : Fin 1)) = ix1 e :=
  funext fun a => match a with | ⟨0, _⟩ => rfl

/-- The reference's array before its closing slices, at edge `e` and column `j`. -/
theorem mlp_apply (x0 : (⟨S50000x64, .f32⟩ : BufTy).Contents (Elt Ideal)) (x1 : (⟨S2x800000, .i32⟩ : BufTy).Contents (Elt Ideal)) (x2 : (⟨S800000, .f32⟩ : BufTy).Contents (Elt Ideal)) (x3 : (⟨S128x128, .f32⟩ : BufTy).Contents (Elt Ideal)) (x4 : (⟨S128, .f32⟩ : BufTy).Contents (Elt Ideal)) (x5 : (⟨S1x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (e : Fin 800000) (j : Fin 128) :
    val_main_v36 (F := Ideal) x0 x1 x2 x3 x4 x5 x6 x7 x8 (ix2 e j)
      = out (fun k => val_main_v18 (F := Ideal) x0 x1 (ix2 e k)) (x2 (ix1 e)) (fun a k => x3 (ix2 a k)) (fun k => x4 (ix1 k))
          (fun k => x5 (ix2 (0 : Fin 1) k)) (fun k => x6 (ix1 k)) (fun k j => x7 (ix2 k j)) (fun j => x8 (ix1 j)) j := by
  simp only [val_main_v36_apply, val_main_v33_apply, val_main_v35_apply, val_main_v34_apply, val_main_v32_apply,
    val_main_call1_v5_apply, val_main_call1_v4_apply, val_main_call1_cst_0_apply, val_main_call1_v3_apply,
    val_main_call1_v2_apply, val_main_call1_cst_apply, val_main_call1_v1_apply, val_main_call1_v0_apply,
    val_main_v31_apply, val_main_v30_apply, val_main_v29_apply, val_main_v28_apply, val_main_v27_apply,
    val_main_v26_apply, val_main_call0_v5_apply, val_main_call0_v4_apply, val_main_call0_cst_0_apply,
    val_main_call0_v3_apply, val_main_call0_v2_apply, val_main_call0_cst_apply, val_main_call0_v1_apply,
    val_main_call0_v0_apply, val_main_v25_apply, val_main_v24_apply, val_main_v23_apply, val_main_v22_apply,
    val_main_v21_apply, val_main_v20_apply, val_main_v19_apply,
    lidx33, ridx33, lidx27, ridx27, idx35, idx34, idx30, idx29, idx24, idx23, idx21, idx20, idx19,
    Ideal.addf_def, Ideal.mulf_def, Ideal.hostDivf_def, Ideal.hostUnary_exp_def, Ideal.hostNegf_def, Ideal.negf_def,
    Ideal.ofBits_def, div_one_add_exp_neg]
  rfl

end Cert.ReferenceIdeal.Mlp

end
-- ==== Proof.Bridge.lean ====
/-
  The two programs side by side.

  Both programs open with the same lines (the two endpoint-index rows sliced off the index array, negative indices wrapped,
  the endpoint rows gathered and joined; the times as a column) and close with the same lines (the output's halves stacked
  and scatter-added by the stacked indices).  Between them the kernel applies the edge network one block of 4000 edges at a
  time and the reference applies it to all edges at once; both are `Cert.EdgeMlp.out` entry by entry, on the same rows
  and the same weights.  The only difference in spelling before the network is the bias rows: the kernel reshapes a
  128-vector to a [1, 128] row, the reference broadcasts it into one; both read the vector's entry `k` at `(0, k)`.
-/
import proofs.«173034_j46196668236124_1_alg».proof.Defs
import proofs.«173034_j46196668236124_1_alg».proof.Proof.KernelValue
import proofs.«173034_j46196668236124_1_alg».proof.Proof.RefMlp
import proofs.«173034_j46196668236124_1_alg».proof.Proof.Gen.ReferenceIdeal.Run
import proofs.«173034_j46196668236124_1_alg».proof.Proof.Gen.ReferenceIdeal.Read
import Idealize.ShloMosaic.Lib.StableHlo.Run
import Idealize.ShloMosaic.Lib.ValueLayout

set_option maxRecDepth 16384

noncomputable section

namespace Cert.Proof.Bridge

open Idealize.ShloMosaic Idealize.ShloMosaic.TcCoe Idealize.SL.Sem Idealize.ShloMosaic.ValueIdx Cert.EdgeMlp

/-! ## The opening lines: what the region finds is what the reference computes -/

section Opening

variable {F : FTy → Type} [FloatOps F]
variable (m : (ℓ : Loc Cert.KernelIdeal.nD Cert.KernelIdeal.τ Cert.KernelIdeal.sig) → Buf (Elt F) ℓ)

set_option maxHeartbeats 2000000 in
/-- The joined endpoint rows. -/
theorem rows_eq (c : Dev Cert.KernelIdeal.nD) :
    Cert.KernelIdeal.Gen.V m c Cert.KernelIdeal.main_v18
      = Cert.ReferenceIdeal.Read.val_main_v18 (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  dsimp only [Cert.KernelIdeal.Gen.V, Cert.KernelIdeal.Gen.V0]
  simp only [Cert.KernelIdeal.Gen.hostOps0, List.flatten_cons, List.flatten_nil, List.append_nil]
  after_results_simp
  rfl

/-- The times as a column. -/
theorem times_eq (c : Dev Cert.KernelIdeal.nD) :
    Cert.KernelIdeal.Gen.V m c Cert.KernelIdeal.main_v19 = Cert.ReferenceIdeal.Read.val_main_v19 (F := F) (m ((c.tc : Thread Cert.KernelIdeal.nD Cert.KernelIdeal.τ).loc Cert.KernelIdeal.main_arg2)) := by
  dsimp only [Cert.KernelIdeal.Gen.V, Cert.KernelIdeal.Gen.V0]
  simp only [Cert.KernelIdeal.Gen.hostOps0, List.flatten_cons, List.flatten_nil, List.append_nil]
  after_results_simp
  rfl

/-- The first endpoint-index row. -/
theorem srcIdx_eq (c : Dev Cert.KernelIdeal.nD) :
    Cert.KernelIdeal.Gen.V m c Cert.KernelIdeal.main_v1 = Cert.ReferenceIdeal.Read.val_main_v1 (F := F) (m ((c.tc : Thread Cert.KernelIdeal.nD Cert.KernelIdeal.τ).loc Cert.KernelIdeal.main_arg1)) := by
  dsimp only [Cert.KernelIdeal.Gen.V, Cert.KernelIdeal.Gen.V0]
  simp only [Cert.KernelIdeal.Gen.hostOps0, List.flatten_cons, List.flatten_nil, List.append_nil]
  after_results_simp
  rfl

/-- The second endpoint-index row. -/
theorem dstIdx_eq (c : Dev Cert.KernelIdeal.nD) :
    Cert.KernelIdeal.Gen.V m c Cert.KernelIdeal.main_v3 = Cert.ReferenceIdeal.Read.val_main_v3 (F := F) (m ((c.tc : Thread Cert.KernelIdeal.nD Cert.KernelIdeal.τ).loc Cert.KernelIdeal.main_arg1)) := by
  dsimp only [Cert.KernelIdeal.Gen.V, Cert.KernelIdeal.Gen.V0]
  simp only [Cert.KernelIdeal.Gen.hostOps0, List.flatten_cons, List.flatten_nil, List.append_nil]
  after_results_simp
  rfl

/-- A bias vector reshaped to a row reads the vector. -/
theorem b1_apply (c : Dev Cert.KernelIdeal.nD) (k : Fin 128) :
    (Cert.KernelIdeal.Gen.V m c Cert.KernelIdeal.main_v20 : (⟨2, ![1, 128]⟩ : Shape).Idx → Elt F .f32) (ix2 (0 : Fin 1) k)
      = ((m ((c.tc : Thread Cert.KernelIdeal.nD Cert.KernelIdeal.τ).loc Cert.KernelIdeal.main_arg4)) : (⟨1, ![128]⟩ : Shape).Idx → Elt F .f32) (ix1 k) := by
  have e : Cert.KernelIdeal.Gen.V m c Cert.KernelIdeal.main_v20
      = shapeCast Cert.KernelIdeal.S1x128 ((m ((c.tc : Thread Cert.KernelIdeal.nD Cert.KernelIdeal.τ).loc Cert.KernelIdeal.main_arg4)) : (⟨1, ![128]⟩ : Shape).Idx → Elt F .f32) Cert.KernelIdeal.Gen.shapeCasts_S128_S1x128 := by
    dsimp only [Cert.KernelIdeal.Gen.V, Cert.KernelIdeal.Gen.V0]
    simp only [Cert.KernelIdeal.Gen.hostOps0, List.flatten_cons, List.flatten_nil, List.append_nil]
    after_results_simp
    rfl
  rw [e]
  exact shapeCast_a_1a_apply _ _ 0 k

theorem bt_apply (c : Dev Cert.KernelIdeal.nD) (k : Fin 128) :
    (Cert.KernelIdeal.Gen.V m c Cert.KernelIdeal.main_v21 : (⟨2, ![1, 128]⟩ : Shape).Idx → Elt F .f32) (ix2 (0 : Fin 1) k)
      = ((m ((c.tc : Thread Cert.KernelIdeal.nD Cert.KernelIdeal.τ).loc Cert.KernelIdeal.main_arg6)) : (⟨1, ![128]⟩ : Shape).Idx → Elt F .f32) (ix1 k) := by
  have e : Cert.KernelIdeal.Gen.V m c Cert.KernelIdeal.main_v21
      = shapeCast Cert.KernelIdeal.S1x128 ((m ((c.tc : Thread Cert.KernelIdeal.nD Cert.KernelIdeal.τ).loc Cert.KernelIdeal.main_arg6)) : (⟨1, ![128]⟩ : Shape).Idx → Elt F .f32) Cert.KernelIdeal.Gen.shapeCasts_S128_S1x128 := by
    dsimp only [Cert.KernelIdeal.Gen.V, Cert.KernelIdeal.Gen.V0]
    simp only [Cert.KernelIdeal.Gen.hostOps0, List.flatten_cons, List.flatten_nil, List.append_nil]
    after_results_simp
    rfl
  rw [e]
  exact shapeCast_a_1a_apply _ _ 0 k

theorem b2_apply (c : Dev Cert.KernelIdeal.nD) (k : Fin 128) :
    (Cert.KernelIdeal.Gen.V m c Cert.KernelIdeal.main_v22 : (⟨2, ![1, 128]⟩ : Shape).Idx → Elt F .f32) (ix2 (0 : Fin 1) k)
      = ((m ((c.tc : Thread Cert.KernelIdeal.nD Cert.KernelIdeal.τ).loc Cert.KernelIdeal.main_arg8)) : (⟨1, ![128]⟩ : Shape).Idx → Elt F .f32) (ix1 k) := by
  have e : Cert.KernelIdeal.Gen.V m c Cert.KernelIdeal.main_v22
      = shapeCast Cert.KernelIdeal.S1x128 ((m ((c.tc : Thread Cert.KernelIdeal.nD Cert.KernelIdeal.τ).loc Cert.KernelIdeal.main_arg8)) : (⟨1, ![128]⟩ : Shape).Idx → Elt F .f32) Cert.KernelIdeal.Gen.shapeCasts_S128_S1x128 := by
    dsimp only [Cert.KernelIdeal.Gen.V, Cert.KernelIdeal.Gen.V0]
    simp only [Cert.KernelIdeal.Gen.hostOps0, List.flatten_cons, List.flatten_nil, List.append_nil]
    after_results_simp
    rfl
  rw [e]
  exact shapeCast_a_1a_apply _ _ 0 k

end Opening

/-! ## The closing lines -/

section Closing

variable {F : FTy → Type} [FloatOps F]

/-- The reference's closing lines as a function of the index array and of its array before them. -/
def refClosing (x1 : (⟨Cert.ReferenceIdeal.S2x800000, .i32⟩ : BufTy).Contents (Elt F))
    (E : (⟨Cert.ReferenceIdeal.S800000x128, .f32⟩ : BufTy).Contents (Elt F)) : (⟨Cert.ReferenceIdeal.S50000x64, .f32⟩ : BufTy).Contents (Elt F) :=
  Host.scatterAdd Cert.ReferenceIdeal.scatter_S50000x64_S1600000x1_S1600000x64_1_0_0_1 (Cert.ReferenceIdeal.Read.val_main_v41 (F := F))
    (Cert.ReferenceIdeal.Read.val_main_v42 (F := F) x1)
    (concatenate Cert.ReferenceIdeal.S1600000x64 0
      [⟨Cert.ReferenceIdeal.S800000x64, extractStridedSlice Cert.ReferenceIdeal.S800000x64 ![0, 0] E Cert.ReferenceIdeal.Gen.slices_S800000x128_S800000x64_0_0⟩,
        ⟨Cert.ReferenceIdeal.S800000x64, extractStridedSlice Cert.ReferenceIdeal.S800000x64 ![0, 64] E Cert.ReferenceIdeal.Gen.slices_S800000x128_S800000x64_0_64⟩]
      Cert.ReferenceIdeal.Gen.concatenates_S800000x64_S800000x64_S1600000x64_d0)

/-- The reference's result is its closing lines of its array before them. -/
theorem ref_result (x0 : (⟨Cert.ReferenceIdeal.S50000x64, .f32⟩ : BufTy).Contents (Elt F)) (x1 : (⟨Cert.ReferenceIdeal.S2x800000, .i32⟩ : BufTy).Contents (Elt F))
    (x2 : (⟨Cert.ReferenceIdeal.S800000, .f32⟩ : BufTy).Contents (Elt F)) (x3 : (⟨Cert.ReferenceIdeal.S128x128, .f32⟩ : BufTy).Contents (Elt F))
    (x4 : (⟨Cert.ReferenceIdeal.S128, .f32⟩ : BufTy).Contents (Elt F)) (x5 : (⟨Cert.ReferenceIdeal.S1x128, .f32⟩ : BufTy).Contents (Elt F))
    (x6 : (⟨Cert.ReferenceIdeal.S128, .f32⟩ : BufTy).Contents (Elt F)) (x7 : (⟨Cert.ReferenceIdeal.S128x128, .f32⟩ : BufTy).Contents (Elt F))
    (x8 : (⟨Cert.ReferenceIdeal.S128, .f32⟩ : BufTy).Contents (Elt F)) :
    Cert.ReferenceIdeal.Read.val_main_v43 (F := F) x0 x1 x2 x3 x4 x5 x6 x7 x8
      = refClosing x1 (Cert.ReferenceIdeal.Read.val_main_v36 (F := F) x0 x1 x2 x3 x4 x5 x6 x7 x8) := rfl

/-- The kernel's closing lines are the reference's. -/
theorem closing_eq (x1 : (⟨Cert.ReferenceIdeal.S2x800000, .i32⟩ : BufTy).Contents (Elt F))
    (E : (⟨Cert.ReferenceIdeal.S800000x128, .f32⟩ : BufTy).Contents (Elt F)) :
    Cert.KernelIdeal.Edge.closing (F := F) (Cert.ReferenceIdeal.Read.val_main_v1 (F := F) x1) (Cert.ReferenceIdeal.Read.val_main_v3 (F := F) x1) E
      = refClosing x1 E := rfl

end Closing

/-! ## The kernel's result is the reference's function of the arguments -/

variable (m : (ℓ : Loc Cert.KernelIdeal.nD Cert.KernelIdeal.τ Cert.KernelIdeal.sig) → Buf (Elt Ideal) ℓ)

/-- The kernel's whole output array is the reference's array before its closing lines. -/
theorem edgeOut_eq (c : Dev Cert.KernelIdeal.nD) :
    Cert.KernelIdeal.Edge.edgeOut m c = Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  funext i
  obtain ⟨e, j, rfl⟩ : ∃ (e : Fin 800000) (j : Fin 128), i = ix2 e j := ⟨i 0, i 1, eq_ix2 i⟩
  rw [Cert.ReferenceIdeal.Mlp.mlp_apply]
  show Cert.KernelIdeal.Edge.edgeOutAt m c e j = _
  unfold Cert.KernelIdeal.Edge.edgeOutAt
  refine out_congr j (fun k => ?_) ?_ (fun a k => ?_) (fun k => ?_) (fun k => ?_) (fun k => ?_) (fun k j => ?_) (fun j => ?_)
  · show Cert.KernelIdeal.Gen.V m c Cert.KernelIdeal.main_v18 _ = _
    rw [rows_eq]
  · show Cert.KernelIdeal.Gen.V m c Cert.KernelIdeal.main_v19 _ = _
    rw [times_eq, Cert.ReferenceIdeal.Read.val_main_v19_apply, Cert.ReferenceIdeal.Mlp.idx19]
  · show Cert.KernelIdeal.Gen.V m c Cert.KernelIdeal.main_arg3 _ = _
    rw [Cert.KernelIdeal.Gen.V_main_arg3]
  · exact b1_apply m c k
  · show Cert.KernelIdeal.Gen.V m c Cert.KernelIdeal.main_arg5 _ = _
    rw [Cert.KernelIdeal.Gen.V_main_arg5]
  · exact bt_apply m c k
  · show Cert.KernelIdeal.Gen.V m c Cert.KernelIdeal.main_arg7 _ = _
    rw [Cert.KernelIdeal.Gen.V_main_arg7]
  · exact b2_apply m c j

/-- The kernel's result is the reference's function of the kernel's arguments. -/
theorem kernel_result (c : Dev Cert.KernelIdeal.nD) :
    Cert.KernelIdeal.Edge.closing (Cert.KernelIdeal.Gen.V m c Cert.KernelIdeal.main_v1) (Cert.KernelIdeal.Gen.V m c Cert.KernelIdeal.main_v3) (Cert.KernelIdeal.Edge.edgeOut m c)
      = Cert.ReferenceIdeal.Read.val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  rw [srcIdx_eq, dstIdx_eq, edgeOut_eq, ref_result]
  exact closing_eq _ _

end Cert.Proof.Bridge

end
-- ==== Proof.lean ====
/-
  An edge network on a graph: every edge joins the feature rows of its two endpoints, a two-layer network with a time
  embedding maps the joined row to an update row, the update's two halves go to the two endpoints, and the updates are
  summed per node.  The kernel gathers the endpoint rows and scatter-adds the updates on the host, and runs the network
  itself in a pipelined region, one block of 4000 edges per grid point; the reference does everything on the host.

  Over the extended reals the two programs compute one function of the arguments.  The lines before and after the network
  are the same operations on both sides.  The network, entry by entry, is `Cert.EdgeMlp.out` on both sides: the kernel's
  matrix products into a zero accumulator and the reference's `dot_general`s are the same sums over the 128 contracted
  entries, the kernel's roundings to a narrower format are the identity, and the kernel's logistic operation is the
  quotient `1 / (1 + e^(-a))` the reference spells out.  No algebraic law is needed and the precondition is never opened.
  The kernel's output array is assembled from its 200 blocks, which tile it.  No operation of the kernel was rewritten for
  its reading over the extended reals, so that reading is the kernel's own text and nothing is owed for it.
-/
import proofs.«173034_j46196668236124_1_alg».proof.Defs
import proofs.«173034_j46196668236124_1_alg».proof.Proof.Gen.Kernel
import proofs.«173034_j46196668236124_1_alg».proof.Proof.Gen.Kernel.Skeleton
import proofs.«173034_j46196668236124_1_alg».proof.Proof.Gen.Kernel.Launch
import proofs.«173034_j46196668236124_1_alg».proof.Proof.Gen.Kernel.Points
import proofs.«173034_j46196668236124_1_alg».proof.Proof.Gen.Kernel.Frame
import proofs.«173034_j46196668236124_1_alg».proof.Proof.Gen.KernelIdeal
import proofs.«173034_j46196668236124_1_alg».proof.Proof.Gen.KernelIdeal.Skeleton
import proofs.«173034_j46196668236124_1_alg».proof.Proof.Gen.KernelIdeal.Launch
import proofs.«173034_j46196668236124_1_alg».proof.Proof.Gen.KernelIdeal.Points
import proofs.«173034_j46196668236124_1_alg».proof.Proof.Gen.KernelIdeal.Frame
import proofs.«173034_j46196668236124_1_alg».proof.Proof.Gen.ReferenceIdeal
import proofs.«173034_j46196668236124_1_alg».proof.Proof.Gen.ReferenceIdeal.Run
import proofs.«173034_j46196668236124_1_alg».proof.Proof.Gen.ReferenceIdeal.Read
import proofs.«173034_j46196668236124_1_alg».proof.Proof.Gen.Pre_finite_inputs
import proofs.«173034_j46196668236124_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the reference's function of the (agreeing) arguments. -/
theorem algebraic : Cert.algebraic_KernelIdeal_ReferenceIdeal := by
  intro m ρ m' ρ' _ hagree
  refine ⟨fun c => Cert.ReferenceIdeal.Read.val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun _ h c => ⟨(h c).1.trans (Bridge.kernel_result m c), (h c).2⟩)
      (Cert.KernelIdeal.Edge.run m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v43_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
